-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : IVec S4096x128 32) (main_arg2 : IVec S4096x128 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  main_v3
-- ==== Kernel.lean ====
abbrev S4096x128 : Shape := ⟨2, ![4096, 128]⟩
abbrev S1x1 : Shape := ⟨2, ![1, 1]⟩
abbrev S64x128 : Shape := ⟨2, ![64, 128]⟩
abbrev S64x128x1 : Shape := ⟨3, ![64, 128, 1]⟩
abbrev S64x1x128 : Shape := ⟨3, ![64, 1, 128]⟩
abbrev S64x128x128 : Shape := ⟨3, ![64, 128, 128]⟩
abbrev S64x1 : Shape := ⟨2, ![64, 1]⟩
abbrev S64x1x1 : Shape := ⟨3, ![64, 1, 1]⟩
abbrev S_ : Shape := ⟨0, ![]⟩

abbrev nBuf : Space → Nat
  | .hbm => 13
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x128, .i32⟩
  | .hbm, ⟨2, _⟩ => ⟨S4096x128, .i32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S64x128, .f32⟩
  | .local _ .vmem, ⟨1, _⟩ => ⟨S64x128, .f32⟩
  | .local _ .vmem, ⟨2, _⟩ => ⟨S64x128, .i32⟩
  | .local _ .vmem, ⟨3, _⟩ => ⟨S64x128, .i32⟩
  | .local _ .vmem, ⟨4, _⟩ => ⟨S64x128, .i32⟩
  | .local _ .vmem, ⟨5, _⟩ => ⟨S64x128, .i32⟩
  | .local _ .vmem, ⟨6, _⟩ => ⟨S1x1, .f32⟩
  | .local _ .vmem, ⟨7, _⟩ => ⟨S1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S64x128_S64x128_0_0 : ∀ a, (![0, 0] : Fin 2 → Nat) a + S64x128.size a ≤ S64x128.size a
  h_S64x128 : 0 < S64x128.numel
  natLt_1_32 : 1 < 32
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  reduces_S64x128x128_S64x128 : S64x128x128.Reduces [2] S64x128
  reduces_S64x128x1_S64x1 : S64x128x1.Reduces [1] S64x1
  shapeCasts_S64x1_S64x1x1 : S64x1.ShapeCasts S64x1x1
  reduces_S64x1x1_S1x1 : S64x1x1.Reduces [0] S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x128.size a
  hwx0_0 : ∀ i : grid0.Coords, EltTy.bits .f32 = 32 ∨ (Rect.block (s := S4096x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S4096x128.size a
  hwx0_1 : ∀ i : grid0.Coords, EltTy.bits .i32 = 32 ∨ (Rect.block (s := S4096x128) S64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S4096x128.size a
  hwx0_2 : ∀ i : grid0.Coords, EltTy.bits .i32 = 32 ∨ (Rect.block (s := S4096x128) S64x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S_ : Shape := ⟨0, ![]⟩
abbrev S4096x128x1 : Shape := ⟨3, ![4096, 128, 1]⟩
abbrev S4096x1x128 : Shape := ⟨3, ![4096, 1, 128]⟩
abbrev S4096x128x128 : Shape := ⟨3, ![4096, 128, 128]⟩

abbrev nBuf : Space → Nat
  | .hbm => 42
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .i32⟩
  | .hbm, ⟨2, _⟩ => ⟨S4096x128, .i32⟩
  | .hbm, ⟨3, _⟩ => ⟨S_, .i32⟩
  | .hbm, ⟨4, _⟩ => ⟨S4096x128, .i32⟩
  | .hbm, ⟨5, _⟩ => ⟨S4096x128, .i1⟩
  | .hbm, ⟨6, _⟩ => ⟨S4096x128, .f32⟩
  | .hbm, ⟨7, _⟩ => ⟨S_, .i32⟩
  | .hbm, ⟨8, _⟩ => ⟨S4096x128, .i32⟩
  | .hbm, ⟨9, _⟩ => ⟨S4096x128, .i1⟩
  | .hbm, ⟨10, _⟩ => ⟨S_, .i32⟩
  | .hbm, ⟨11, _⟩ => ⟨S4096x128, .i32⟩
  | .hbm, ⟨12, _⟩ => ⟨S4096x128, .i1⟩
  | .hbm, ⟨13, _⟩ => ⟨S4096x128, .i1⟩
  | .hbm, ⟨14, _⟩ => ⟨S4096x128, .f32⟩
  | .hbm, ⟨15, _⟩ => ⟨S4096x128x1, .f32⟩
  | .hbm, ⟨16, _⟩ => ⟨S4096x1x128, .f32⟩
  | .hbm, ⟨17, _⟩ => ⟨S4096x128x128, .f32⟩
  | .hbm, ⟨18, _⟩ => ⟨S4096x128x128, .f32⟩
  | .hbm, ⟨19, _⟩ => ⟨S4096x128x128, .f32⟩
  | .hbm, ⟨20, _⟩ => ⟨S4096x128x1, .f32⟩
  | .hbm, ⟨21, _⟩ => ⟨S4096x1x128, .f32⟩
  | .hbm, ⟨22, _⟩ => ⟨S4096x128x128, .f32⟩
  | .hbm, ⟨23, _⟩ => ⟨S4096x128x128, .f32⟩
  | .hbm, ⟨24, _⟩ => ⟨S4096x128x128, .f32⟩
  | .hbm, ⟨25, _⟩ => ⟨S_, .f32⟩
  | .hbm, ⟨26, _⟩ => ⟨S4096x128x128, .f32⟩
  | .hbm, ⟨27, _⟩ => ⟨S4096x128x128, .f32⟩
  | .hbm, ⟨28, _⟩ => ⟨S_, .f32⟩
  | .hbm, ⟨29, _⟩ => ⟨S4096x128x128, .f32⟩
  | .hbm, ⟨30, _⟩ => ⟨S4096x128x128, .f32⟩
  | .hbm, ⟨31, _⟩ => ⟨S4096x128x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_call0_cst : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  bcast_S4096x128_S4096x128x1_0_1 : S4096x128.BroadcastsInDim S4096x128x1 (![0, 1] : Fin 2 → Fin S4096x128x1.rank)
  bcast_S4096x128_S4096x1x128_0_2 : S4096x128.BroadcastsInDim S4096x1x128 (![0, 2] : Fin 2 → Fin S4096x1x128.rank)
  bcast_S4096x128x1_S4096x128x128_0_1_2 : S4096x128x1.BroadcastsInDim S4096x128x128 (![0, 1, 2] : Fin 3 → Fin S4096x128x128.rank)
  bcast_S4096x1x128_S4096x128x128_0_1_2 : S4096x1x128.BroadcastsInDim S4096x128x128 (![0, 1, 2] : Fin 3 → Fin S4096x128x128.rank)
  bcast_S_S4096x128x128 : S_.BroadcastsInDim S4096x128x128 (![] : Fin 0 → Fin S4096x128x128.rank)
  reducesTo_S4096x128x128_S_d0_1_2 : S4096x128x128.ReducesTo [0, 1, 2] S_
  h_S_ : 0 < S_.numel

variable [Facts₀]

class Facts : Prop extends Facts₀ where

variable [Facts]
-- ==== Proof.PairHinge.lean ====
/-
  The pairwise ranking hinge loss, as mathematics over the extended reals.

  A table of scores `s[b, i]` and two tables of words `tm[b, i]`, `vm[b, i]` (rows `b`, 128 cards `i`). Card `i` of row
  `b` is an ANCHOR when `tm[b, i] = 1` (`anchor`, the number 1 or 0), and card `j` is an OPPONENT when `tm[b, j] = 0` and
  `vm[b, j] = 1` (`opponent`). A pair (i, j) of row `b` weighs `anchor · opponent` (`pairW`), and costs
  `max (1 - (s[b,i] - s[b,j])) 0` times its weight (`hingeW`). The loss is the sum of the costs over every row and pair
  (`lossSum`), the count the sum of the weights (`pairCount`), and the result `loss / max count 1` where the count is
  positive and `loss` elsewhere (`finish`, stated for any float values: both programs end with these operations).

  What is proved here is only how such a triple sum may be CUT: the sum over 4096 rows is the sum, over 64 consecutive
  blocks of 64 rows, of the blocks' own sums (`lossSum_blocks`, `pairCount_blocks`) — addition of extended reals is
  commutative and associative, so no finiteness is asked —, that a rank-3 index set is the product of its coordinate
  ranges (`sum_idx3`), and that a one-bit word widened to 32 bits and read signed is the bit read unsigned
  (`signed_widened_bit`).
-/
import Idealize.ShloMosaic.Lib.ValueIdx
import Idealize.ShloMosaic.PureOps.Ideal.Laws

noncomputable section

open scoped BigOperators

namespace Cert.PairHinge

open Idealize.ShloMosaic Idealize.ShloMosaic.ValueIdx

/-- A table of `R` rows of 128 cards. -/
abbrev Tbl (R : Nat) (α : Type) : Type := (⟨2, ![R, 128]⟩ : Shape).Idx → α

/-- 1 when the word is 1, else 0: the card is an anchor. -/
def anchor (a : BitVec 32) : EReal := FloatOps.uitofp (F := Ideal) .f32 (IntOp.cmpi .eq a 1#32)

/-- 1 when the first word is 0 and the second is 1, else 0: the card is a valid card that is no anchor. -/
def opponent (a v : BitVec 32) : EReal :=
  FloatOps.uitofp (F := Ideal) .f32 (IntOp.andi (IntOp.cmpi .eq a 0#32) (IntOp.cmpi .eq v 1#32))

/-- The weight of the pair (i, j) of row `b`. -/
def pairW {R : Nat} (tm vm : Tbl R (BitVec 32)) (b : Fin R) (i j : Fin 128) : EReal :=
  anchor (tm (ix2 b i)) * opponent (tm (ix2 b j)) (vm (ix2 b j))

/-- The cost of the pair (i, j) of row `b`: the hinge of the margin 1 (the word `0x3F800000`) minus the score
    difference, floored at 0 (the zero word), times the pair's weight. -/
def hingeW {R : Nat} (s : Tbl R EReal) (tm vm : Tbl R (BitVec 32)) (b : Fin R) (i j : Fin 128) : EReal :=
  max (Ideal.ofBits .f32 0x3F800000#32 - (s (ix2 b i) - s (ix2 b j))) (Ideal.ofBits .f32 0x00000000#32) * pairW tm vm b i j

/-- The sum of the costs over every row and every pair of cards. -/
def lossSum {R : Nat} (s : Tbl R EReal) (tm vm : Tbl R (BitVec 32)) : EReal :=
  ∑ b : Fin R, ∑ i : Fin 128, ∑ j : Fin 128, hingeW s tm vm b i j

/-- The sum of the weights over every row and every pair of cards. -/
def pairCount {R : Nat} (tm vm : Tbl R (BitVec 32)) : EReal :=
  ∑ b : Fin R, ∑ i : Fin 128, ∑ j : Fin 128, pairW tm vm b i j

/-- Rows `64 p … 64 p + 63` of a table of 4096 rows, as a table of 64 rows. -/
def rows64 {α : Type} (x : Tbl 4096 α) (p : Fin 64) : Tbl 64 α :=
  fun y => x (ix2 ⟨64 * p.val + (y 0).val, by have := (y 0).isLt; have := p.isLt; simp at *; omega⟩ (y 1))

theorem rows64_apply {α : Type} (x : Tbl 4096 α) (p : Fin 64) (q : Fin 64) (i : Fin 128) :
    rows64 x p (ix2 q i) = x (ix2 ⟨64 * p.val + q.val, by have := q.isLt; have := p.isLt; omega⟩ i) := rfl

/-- A sum over 4096 rows is the sum over 64 blocks of the sums over each block's 64 rows. -/
theorem sum_rows_blocks {M : Type*} [AddCommMonoid M] (f : Fin 4096 → M) :
    ∑ b, f b = ∑ p : Fin 64, ∑ q : Fin 64, f ⟨64 * p.val + q.val, by have := q.isLt; have := p.isLt; omega⟩ := by
  rw [← Equiv.sum_comp (finProdFinEquiv (m := 64) (n := 64)) f, Fintype.sum_prod_type]
  refine Finset.sum_congr rfl fun p _ => Finset.sum_congr rfl fun q _ => congrArg f (Fin.ext ?_)
  show q.val + 64 * p.val = 64 * p.val + q.val
  omega

theorem lossSum_blocks (s : Tbl 4096 EReal) (tm vm : Tbl 4096 (BitVec 32)) :
    lossSum s tm vm = ∑ p : Fin 64, lossSum (rows64 s p) (rows64 tm p) (rows64 vm p) := by
  unfold lossSum
  rw [sum_rows_blocks]
  rfl

theorem pairCount_blocks (tm vm : Tbl 4096 (BitVec 32)) :
    pairCount tm vm = ∑ p : Fin 64, pairCount (rows64 tm p) (rows64 vm p) := by
  unfold pairCount
  rw [sum_rows_blocks]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A one-bit word is 0 or 1. -/
theorem bit_cases (b : BitVec 1) : b = 0#1 ∨ b = 1#1 := by
  revert b; decide

/-- A one-bit word widened to 32 bits and read as a signed integer is the bit read unsigned: both are the number 0 or 1. -/
theorem signed_widened_bit (b : BitVec 1) :
    FloatOps.sitofp (F := Ideal) .f32 (b.setWidth 32) = FloatOps.uitofp (F := Ideal) .f32 b := by
  rcases bit_cases b with rfl | rfl <;> rfl

/-- The end of both programs: the loss over the count floored at 1 (the word `0x3F800000`) where the count is above 0
    (the zero word), the loss itself elsewhere. -/
def finish {F : FTy → Type} [FloatOps F] (loss count : FVec F ⟨0, ![]⟩ .f32) : FVec F ⟨0, ![]⟩ .f32 :=
  select (cmpf .ogt count (constant ⟨0, ![]⟩ .f32 0x00000000#32))
    (Host.divf loss (maximumf count (constant ⟨0, ![]⟩ .f32 0x3F800000#32))) loss

end Cert.PairHinge

end
-- ==== Proof.RefSum.lean ====
/-
  The reference, read at an index. jnp builds the [4096, 128, 128] array of pair weights
  `anchor tm[b,i] · opponent tm[b,j] vm[b,j]` and the array of hinge costs `max (1 - (s[b,i] - s[b,j])) 0` times the weights
  by repeating the [4096, 128] tables along a new last or middle axis (`ref_weight`, `ref_cost`), sums each array over
  all three axes at once from the zero word (so each sum is the triple sum over the coordinates: `ref_loss`,
  `ref_count`), and ends with `finish` of the two sums (`ref_result`).
-/
import proofs.«148884_j9783935500651_1_alg».proof.Proof.RefRead
import proofs.«148884_j9783935500651_1_alg».proof.Proof.PairHinge

noncomputable section

open scoped BigOperators

namespace Cert.PairHinge

open Idealize.ShloMosaic Idealize.ShloMosaic.ValueIdx Cert.ReferenceIdeal Cert.ReferenceIdeal.ReadP

/-- The reference's array of pair weights at (b, i, j). -/
theorem ref_weight (x1 x2 : Tbl 4096 (BitVec 32)) (b : Fin 4096) (i j : Fin 128) :
    val_main_v13 (F := Ideal) x1 x2 (ix3 b i j) = pairW x1 x2 b i j := by
  have e1 : idx_main_v9 (idx_main_v11 (ix3 b i j)) = ix2 b i :=
    funext fun d => match d with | ⟨0, _⟩ => rfl | ⟨1, _⟩ => rfl
  have e2 : idx_main_v10 (idx_main_v12 (ix3 b i j)) = ix2 b j :=
    funext fun d => match d with | ⟨0, _⟩ => rfl | ⟨1, _⟩ => rfl
  rw [val_main_v13_apply, val_main_v11_apply, val_main_v9_apply, val_main_v2_apply, val_main_v1_apply, val_main_v0_apply,
    val_main_c_apply, val_main_v12_apply, val_main_v10_apply, val_main_v8_apply, val_main_v7_apply, val_main_v4_apply,
    val_main_v3_apply, val_main_c_0_apply, val_main_v6_apply, val_main_v5_apply, val_main_c_1_apply, e1, e2]
  rfl

/-- The reference's array of hinge costs at (b, i, j). -/
theorem ref_cost (x0 : Tbl 4096 EReal) (x1 x2 : Tbl 4096 (BitVec 32)) (b : Fin 4096) (i j : Fin 128) :
    val_main_v22 (F := Ideal) x0 x1 x2 (ix3 b i j) = hingeW x0 x1 x2 b i j := by
  have e1 : idx_main_v14 (idx_main_v16 (ix3 b i j)) = ix2 b i :=
    funext fun d => match d with | ⟨0, _⟩ => rfl | ⟨1, _⟩ => rfl
  have e2 : idx_main_v15 (idx_main_v17 (ix3 b i j)) = ix2 b j :=
    funext fun d => match d with | ⟨0, _⟩ => rfl | ⟨1, _⟩ => rfl
  rw [val_main_v22_apply, ref_weight, val_main_v21_apply, val_main_v20_apply, val_main_v19_apply, val_main_cst_apply,
    val_main_v18_apply, val_main_v16_apply, val_main_v14_apply, val_main_v17_apply, val_main_v15_apply,
    val_main_call0_v0_apply, val_main_call0_cst_apply, e1, e2]
  rfl

/-- The reference's loss sum: the zero word plus the sum over every index of the cost array. -/
theorem ref_loss (x0 : Tbl 4096 EReal) (x1 x2 : Tbl 4096 (BitVec 32)) :
    val_main_v23 (F := Ideal) x0 x1 x2 = fun _ => lossSum x0 x1 x2 := by
  funext y
  rw [val_main_v23_apply, val_main_cst_2_apply, sum_idx3]
  show Ideal.ofBits .f32 0x00000000#32 + _ = _
  rw [Ideal.ofBits_zero_f32, zero_add]
  unfold lossSum
  exact Finset.sum_congr rfl fun b _ => Finset.sum_congr rfl fun i _ => Finset.sum_congr rfl fun j _ => ref_cost x0 x1 x2 b i j

/-- The reference's pair count: the zero word plus the sum over every index of the weight array. -/
theorem ref_count (x1 x2 : Tbl 4096 (BitVec 32)) :
    val_main_v24 (F := Ideal) x1 x2 = fun _ => pairCount x1 x2 := by
  funext y
  rw [val_main_v24_apply, val_main_cst_3_apply, sum_idx3]
  show Ideal.ofBits .f32 0x00000000#32 + _ = _
  rw [Ideal.ofBits_zero_f32, zero_add]
  unfold pairCount
  exact Finset.sum_congr rfl fun b _ => Finset.sum_congr rfl fun i _ => Finset.sum_congr rfl fun j _ => ref_weight x1 x2 b i j

/-- The reference's result: `finish` of the loss sum and the pair count. -/
theorem ref_result (x0 : Tbl 4096 EReal) (x1 x2 : Tbl 4096 (BitVec 32)) :
    val_main_v28 (F := Ideal) x0 x1 x2 = finish (F := Ideal) (fun _ => lossSum x0 x1 x2) (fun _ => pairCount x1 x2) := by
  show finish (F := Ideal) (val_main_v23 (F := Ideal) x0 x1 x2) (val_main_v24 (F := Ideal) x1 x2) = _
  rw [ref_loss, ref_count]

end Cert.PairHinge

end
-- ==== Proof.TileSums.lean ====
/-
  One tile of 64 rows by 128 by 128 pairs, read at an index.

  The tile's entries are built from [64, 128] tables by adding a unit axis and repeating along it: a table viewed as
  [64, 128, 1] and repeated along the last axis holds `x[b, i]` at (b, i, j) (`cast_col`, `bcast_col`); viewed as
  [64, 1, 128] and repeated along the middle axis it holds `x[b, j]` there (`cast_row`, `bcast_row`). The tile is then
  summed one axis at a time — over j, then (after a unit axis is added back) over i, then over the 64 rows — and the one
  entry left is the triple sum `∑ b, ∑ i, ∑ j` of the tile's entries (`sum_tile`): each single-axis sum is the sum over that
  axis's coordinate with the other coordinates kept (`sum_last`, `sum_mid`, `sum_first`).
-/
import Idealize.ShloMosaic.Lib.ValueIdx
import Idealize.ShloMosaic.Lib.Pipeline.Value
import Idealize.ShloMosaic.PureOps.Ideal.Laws

noncomputable section

open scoped BigOperators

namespace Cert.PairHinge

open Idealize.ShloMosaic Idealize.ShloMosaic.ValueIdx

abbrev T64x128 : Shape := ⟨2, ![64, 128]⟩
abbrev T64x128x1 : Shape := ⟨3, ![64, 128, 1]⟩
abbrev T64x1x128 : Shape := ⟨3, ![64, 1, 128]⟩
abbrev T64x128x128 : Shape := ⟨3, ![64, 128, 128]⟩
abbrev T64x1 : Shape := ⟨2, ![64, 1]⟩
abbrev T64x1x1 : Shape := ⟨3, ![64, 1, 1]⟩
abbrev T1x1 : Shape := ⟨2, ![1, 1]⟩

section Layout

variable {α : Type}

/-- A [64, 128] table viewed as [64, 128, 1]: entry (b, i, ·) is entry (b, i). -/
theorem cast_col (x : T64x128.Idx → α) (h : T64x128.ShapeCasts T64x128x1) (b : Fin 64) (i : Fin 128) (z : Fin 1) :
    shapeCast T64x128x1 x h (ix3 b i z) = x (ix2 b i) :=
  shapeCast_apply x h _ _ (by
    rw [Shape.rowMajor_val_two, Shape.rowMajor_val_three]
    show b.val * 128 + i.val = (b.val * 128 + i.val) * 1 + z.val
    have := z.isLt; omega)

/-- A [64, 128] table viewed as [64, 1, 128]: entry (b, ·, j) is entry (b, j). -/
theorem cast_row (x : T64x128.Idx → α) (h : T64x128.ShapeCasts T64x1x128) (b : Fin 64) (z : Fin 1) (j : Fin 128) :
    shapeCast T64x1x128 x h (ix3 b z j) = x (ix2 b j) :=
  shapeCast_apply x h _ _ (by
    rw [Shape.rowMajor_val_two, Shape.rowMajor_val_three]
    show b.val * 128 + j.val = (b.val * 1 + z.val) * 128 + j.val
    have := z.isLt; omega)

/-- A [64, 1] column viewed as [64, 1, 1]. -/
theorem cast_unit (x : T64x1.Idx → α) (h : T64x1.ShapeCasts T64x1x1) (b : Fin 64) (z z' : Fin 1) :
    shapeCast T64x1x1 x h (ix3 b z z') = x (ix2 b z) :=
  shapeCast_apply x h _ _ (by
    rw [Shape.rowMajor_val_two, Shape.rowMajor_val_three]
    show b.val * 1 + z.val = (b.val * 1 + z.val) * 1 + z'.val
    have := z'.isLt; omega)

/-- A [64, 128, 1] array repeated along its last axis: entry (b, i, j) is entry (b, i, 0). -/
theorem bcast_col (v : T64x128x1.Idx → α) (h : T64x128x1.Broadcasts T64x128x128) (b : Fin 64) (i j : Fin 128) :
    broadcastTo T64x128x128 v h (ix3 b i j) = v (ix3 b i (0 : Fin 1)) :=
  broadcastTo_apply v h _ _ (fun a => match a with
    | ⟨0, _⟩ => by show b.val = if (64 : Nat) = 1 then 0 else b.val; rw [if_neg (by decide)]
    | ⟨1, _⟩ => by show i.val = if (128 : Nat) = 1 then 0 else i.val; rw [if_neg (by decide)]
    | ⟨2, _⟩ => by show 0 = if (1 : Nat) = 1 then 0 else j.val; rw [if_pos rfl])

/-- A [64, 1, 128] array repeated along its middle axis: entry (b, i, j) is entry (b, 0, j). -/
theorem bcast_row (v : T64x1x128.Idx → α) (h : T64x1x128.Broadcasts T64x128x128) (b : Fin 64) (i j : Fin 128) :
    broadcastTo T64x128x128 v h (ix3 b i j) = v (ix3 b (0 : Fin 1) j) :=
  broadcastTo_apply v h _ _ (fun a => match a with
    | ⟨0, _⟩ => by show b.val = if (64 : Nat) = 1 then 0 else b.val; rw [if_neg (by decide)]
    | ⟨1, _⟩ => by show 0 = if (1 : Nat) = 1 then 0 else i.val; rw [if_pos rfl]
    | ⟨2, _⟩ => by show j.val = if (128 : Nat) = 1 then 0 else j.val; rw [if_neg (by decide)])

end Layout

section Sums

variable (hφ : FKind.Formats .f32) (hacc : (0x00000000#32 : BitVec 32) = FKind.add.neutral .f32 hφ)

/-- The sum over the last axis of a [64, 128, 128] tile, at (b, i): the sum over j of its entries (b, i, j). -/
theorem sum_last (src : FVec Ideal T64x128x128 .f32) (r : T64x128x128.Reduces [2] T64x128) (b : Fin 64) (i : Fin 128) :
    multiReduction .add [2] T64x128 src 0x00000000#32 r hφ hacc (ix2 b i) = ∑ j : Fin 128, src (ix3 b i j) := by
  rw [Ideal.multiReduction_add_single]
  refine Finset.sum_congr rfl fun j _ => congrArg src (funext fun a => ?_)
  match a with
  | ⟨0, _⟩ => rfl
  | ⟨1, _⟩ => rfl
  | ⟨2, _⟩ => rfl

/-- The sum over the middle axis of a [64, 128, 1] array, at (b, z): the sum over i of its entries (b, i, z). -/
theorem sum_mid (src : FVec Ideal T64x128x1 .f32) (r : T64x128x1.Reduces [1] T64x1) (b : Fin 64) (z : Fin 1) :
    multiReduction .add [1] T64x1 src 0x00000000#32 r hφ hacc (ix2 b z) = ∑ i : Fin 128, src (ix3 b i z) := by
  rw [Ideal.multiReduction_add_single]
  refine Finset.sum_congr rfl fun i _ => congrArg src (funext fun a => ?_)
  match a with
  | ⟨0, _⟩ => rfl
  | ⟨1, _⟩ => rfl
  | ⟨2, _⟩ => rfl

/-- The sum over the first axis of a [64, 1, 1] array, at (z, z'): the sum over the 64 rows of its entries (b, z, z'). -/
theorem sum_first (src : FVec Ideal T64x1x1 .f32) (r : T64x1x1.Reduces [0] T1x1) (z z' : Fin 1) :
    multiReduction .add [0] T1x1 src 0x00000000#32 r hφ hacc (ix2 z z') = ∑ b : Fin 64, src (ix3 b z z') := by
  rw [Ideal.multiReduction_add_single]
  refine Finset.sum_congr rfl fun b _ => congrArg src (funext fun a => ?_)
  match a with
  | ⟨0, _⟩ => rfl
  | ⟨1, _⟩ => rfl
  | ⟨2, _⟩ => rfl

/-- A [64, 128, 128] tile summed over its last axis, then (as a [64, 128, 1] array) over its middle axis, then (as a
    [64, 1, 1] array) over its rows: the one entry left is the triple sum of the tile's entries. -/
theorem sum_tile (src : FVec Ideal T64x128x128 .f32)
    (r2 : T64x128x128.Reduces [2] T64x128) (c1 : T64x128.ShapeCasts T64x128x1)
    (r1 : T64x128x1.Reduces [1] T64x1) (c0 : T64x1.ShapeCasts T64x1x1) (r0 : T64x1x1.Reduces [0] T1x1) (y : T1x1.Idx) :
    multiReduction .add [0] T1x1
        (shapeCast T64x1x1
          (multiReduction .add [1] T64x1
            (shapeCast T64x128x1 (multiReduction .add [2] T64x128 src 0x00000000#32 r2 hφ hacc) c1)
            0x00000000#32 r1 hφ hacc) c0)
        0x00000000#32 r0 hφ hacc y
      = ∑ b : Fin 64, ∑ i : Fin 128, ∑ j : Fin 128, src (ix3 b i j) := by
  obtain ⟨z, z', rfl⟩ : ∃ (z z' : Fin 1), y = ix2 z z' := ⟨y 0, y 1, eq_ix2 y⟩
  rw [sum_first]
  refine Finset.sum_congr rfl fun b _ => ?_
  rw [cast_unit, sum_mid]
  refine Finset.sum_congr rfl fun i _ => ?_
  rw [cast_col, sum_last]

end Sums

end Cert.PairHinge

end
-- ==== Proof.BlockBody.lean ====
/-
  What one grid step adds. The body's arithmetic on a block of 64 rows — the scores `x0` and the two word masks `x1`,
  `x2` — builds the [64, 128, 128] tile of pair weights `anchor x1[b,i] · opponent x1[b,j] x2[b,j]` (`weights_at`), the tile
  of hinge costs `max (1 - (x0[b,i] - x0[b,j])) 0` times those weights, and sums each tile one axis at a time; so the step
  leaves in each of the two running totals what it held plus the block's own triple sum: `lossSum` of the block
  (`loss_step`) and `pairCount` of the block (`count_step`). The kernel converts a mask bit by widening it to 32 bits and
  reading it signed, which is the bit read unsigned (`signed_widened_bit`). The value the first step starts from is the
  zero word, the number 0 (`start_zero`).
-/
import proofs.«148884_j9783935500651_1_alg».proof.Proof.Gen.KernelIdeal.Skeleton
import proofs.«148884_j9783935500651_1_alg».proof.Proof.PairHinge
import proofs.«148884_j9783935500651_1_alg».proof.Proof.TileSums

noncomputable section

open scoped BigOperators

namespace Cert.PairHinge

open Idealize.ShloMosaic Idealize.ShloMosaic.ValueIdx Cert.KernelIdeal Cert.KernelIdeal.Gen

/-- The tile of pair weights at (b, i, j). -/
theorem weights_at (x1 x2 : Vec Ideal S64x128 .i32) (b : Fin 64) (i j : Fin 128) :
    k0_pay5 (F := Ideal) x1 x2 (ix3 b i j) = pairW x1 x2 b i j := by
  unfold k0_pay5
  rw [mulf_apply, bcast_col, bcast_row, cast_col, cast_row]
  show FloatOps.sitofp (F := Ideal) .f32 ((IntOp.cmpi .eq (x1 (ix2 b i)) 1#32).setWidth 32)
      * FloatOps.sitofp (F := Ideal) .f32 ((IntOp.andi (IntOp.cmpi .eq (x1 (ix2 b j)) 0#32) (IntOp.cmpi .eq (x2 (ix2 b j)) 1#32)).setWidth 32) = _
  rw [signed_widened_bit, signed_widened_bit]
  rfl

/-- The block's loss: the tile of costs summed over j, then i, then the 64 rows. -/
theorem block_loss (x0 : Vec Ideal S64x128 .f32) (x1 x2 : Vec Ideal S64x128 .i32) (y : S1x1.Idx) :
    k0_pay6 (F := Ideal) x0 x1 x2 y = lossSum x0 x1 x2 := by
  unfold k0_pay6
  refine (sum_tile _ _ _ _ _ _ _ _ y).trans ?_
  unfold lossSum
  refine Finset.sum_congr rfl fun b _ => Finset.sum_congr rfl fun i _ => Finset.sum_congr rfl fun j _ => ?_
  rw [mulf_apply, weights_at, maximumf_apply, subf_apply, subf_apply, bcast_col, bcast_row, cast_col, cast_row]
  rfl

/-- One step of the loss total: what it held plus the block's loss. -/
theorem loss_step (x0 : Vec Ideal S64x128 .f32) (x1 x2 : Vec Ideal S64x128 .i32) (acc : Vec Ideal S1x1 .f32) (y : S1x1.Idx) :
    k0_pay1 (F := Ideal) (k0_pay6 x0 x1 x2) acc y = acc y + lossSum x0 x1 x2 := by
  unfold k0_pay1
  rw [addf_apply, shapeCast_self, block_loss]

/-- One step of the count total: what it held plus the block's count (the tile of weights summed the same way). -/
theorem count_step (x1 x2 : Vec Ideal S64x128 .i32) (acc : Vec Ideal S1x1 .f32) (y : S1x1.Idx) :
    k0_pay2 (F := Ideal) (k0_pay7 x1 x2) acc y = acc y + pairCount x1 x2 := by
  unfold k0_pay2 k0_pay7
  rw [addf_apply, shapeCast_self]
  refine congrArg (acc y + ·) ((sum_tile _ _ _ _ _ _ _ _ y).trans ?_)
  unfold pairCount
  exact Finset.sum_congr rfl fun b _ => Finset.sum_congr rfl fun i _ => Finset.sum_congr rfl fun j _ => weights_at x1 x2 b i j

/-- The two totals start from the zero word, the number 0. -/
theorem start_zero (y : S1x1.Idx) : k0_pay3 (F := Ideal) y = 0 ∧ k0_pay4 (F := Ideal) y = 0 :=
  ⟨Ideal.ofBits_zero_f32, Ideal.ofBits_zero_f32⟩

end Cert.PairHinge

end
-- ==== Proof.Totals.lean ====
/-
  The two running totals across the 64 grid steps.

  The first step stores the zero word in each total's one-entry buffer and then adds its block's sum to it; every later
  step adds its block's sum to what the step before left (`first_loss`, `first_count`, `next_loss`, `next_count`: what
  each kind of step leaves, as the body's arithmetic of the blocks it loads). So after step n the loss total is the sum
  of `lossSum` of blocks 0 … n, and the count total the sum of `pairCount` of those blocks (`loss_after`, `count_after`:
  by induction on the step).
-/
import proofs.«148884_j9783935500651_1_alg».proof.Proof.Gen.KernelIdeal.Frame
import proofs.«148884_j9783935500651_1_alg».proof.Proof.BlockBody
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Totals

open Cert.KernelIdeal Cert.KernelIdeal.Gen Cert.PairHinge Idealize.ShloMosaic.ValueIdx

theorem hz : (![0, 0] : Fin 2 → Nat) = fun _ => 0 := funext fun a => by fin_cases a <;> rfl

section Pieces

variable {F : FTy → Type} [FloatOps F]

/-- The first step leaves in the loss total the block's step over the zero it has just stored. -/
theorem first_loss (c : Dev nD) (i : grid0.Coords) (a1 : Memref sig .tc .vmem S64x128 .f32) (h1 : a1.IsWhole)
    (a2 : Memref sig .tc .vmem S64x128 .i32) (h2 : a2.IsWhole) (a3 : Memref sig .tc .vmem S64x128 .i32) (h3 : a3.IsWhole)
    (a4 : Memref sig .tc .vmem S1x1 .f32) (h4 : a4.IsWhole) (a5 : Memref sig .tc .vmem S1x1 .f32) (h5 : a5.IsWhole)
    (hc : cond0_0 i) (x0 : Vec F S64x128 .f32) (x1 x2 : Vec F S64x128 .i32) :
    out0_A_3 c i a1 h1 a2 h2 a3 h3 a4 h4 a5 h5 hc x0 x1 x2 = k0_pay1 (k0_pay6 x0 x1 x2) (k0_pay3 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S64x128) hz]

/-- The first step leaves in the count total the block's step over the zero it has just stored. -/
theorem first_count (c : Dev nD) (i : grid0.Coords) (a1 : Memref sig .tc .vmem S64x128 .f32) (h1 : a1.IsWhole)
    (a2 : Memref sig .tc .vmem S64x128 .i32) (h2 : a2.IsWhole) (a3 : Memref sig .tc .vmem S64x128 .i32) (h3 : a3.IsWhole)
    (a4 : Memref sig .tc .vmem S1x1 .f32) (h4 : a4.IsWhole) (a5 : Memref sig .tc .vmem S1x1 .f32) (h5 : a5.IsWhole)
    (hc : cond0_0 i) (x0 : Vec F S64x128 .f32) (x1 x2 : Vec F S64x128 .i32) :
    out0_A_4 c i a1 h1 a2 h2 a3 h3 a4 h4 a5 h5 hc x0 x1 x2 = k0_pay2 (k0_pay7 x1 x2) (k0_pay4 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S64x128) hz]

/-- A later step leaves in the loss total the block's step over what the total held. -/
theorem next_loss (c : Dev nD) (i : grid0.Coords) (a1 : Memref sig .tc .vmem S64x128 .f32) (h1 : a1.IsWhole)
    (a2 : Memref sig .tc .vmem S64x128 .i32) (h2 : a2.IsWhole) (a3 : Memref sig .tc .vmem S64x128 .i32) (h3 : a3.IsWhole)
    (a4 : Memref sig .tc .vmem S1x1 .f32) (h4 : a4.IsWhole) (a5 : Memref sig .tc .vmem S1x1 .f32) (h5 : a5.IsWhole)
    (hc : ¬cond0_0 i) (x0 : Vec F S64x128 .f32) (x1 x2 : Vec F S64x128 .i32) (xo3 xo4 : Vec F S1x1 .f32) :
    out0_B_3 c i a1 h1 a2 h2 a3 h3 a4 h4 a5 h5 hc x0 x1 x2 xo3 xo4 = k0_pay1 (k0_pay6 x0 x1 x2) xo3 := by
  unfold out0_B_3
  rw [View.read_writes_eq_canon _ _ _ (cover0_B_3 c i a1 h1 a2 h2 a3 h3 a4 h4 a5 h5 hc x0 x1 x2 xo3 xo4)]
  unfold kernelRun0_B
  dsimp only
  sl_unfold_words
  rw [View.canon_unit_zero hz]
  simp only [View.readAt_eq_ld, h1.read_unread, h2.read_unread, h3.read_unread, h4.read_unread,
    View.ld_unit_zero (S := S64x128) hz, View.ld_unit_zero (S := S1x1) hz]

/-- A later step leaves in the count total the block's step over what the total held. -/
theorem next_count (c : Dev nD) (i : grid0.Coords) (a1 : Memref sig .tc .vmem S64x128 .f32) (h1 : a1.IsWhole)
    (a2 : Memref sig .tc .vmem S64x128 .i32) (h2 : a2.IsWhole) (a3 : Memref sig .tc .vmem S64x128 .i32) (h3 : a3.IsWhole)
    (a4 : Memref sig .tc .vmem S1x1 .f32) (h4 : a4.IsWhole) (a5 : Memref sig .tc .vmem S1x1 .f32) (h5 : a5.IsWhole)
    (hc : ¬cond0_0 i) (x0 : Vec F S64x128 .f32) (x1 x2 : Vec F S64x128 .i32) (xo3 xo4 : Vec F S1x1 .f32) :
    out0_B_4 c i a1 h1 a2 h2 a3 h3 a4 h4 a5 h5 hc x0 x1 x2 xo3 xo4 = k0_pay2 (k0_pay7 x1 x2) xo4 := by
  unfold out0_B_4
  rw [View.read_writes_eq_canon _ _ _ (cover0_B_4 c i a1 h1 a2 h2 a3 h3 a4 h4 a5 h5 hc x0 x1 x2 xo3 xo4)]
  unfold kernelRun0_B
  dsimp only
  sl_unfold_words
  rw [View.canon_unit_zero hz]
  simp only [View.readAt_eq_ld, h2.read_unread, h3.read_unread, h5.read_unread,
    View.ld_unit_zero (S := S64x128) hz, View.ld_unit_zero (S := S1x1) hz]

end Pieces

section Sums

variable (m : (ℓ : Loc nD τ sig) → Buf (Elt Ideal) ℓ)

/-- The three argument arrays as the region finds them, at their literal types. -/
abbrev scoreArr (c : Dev nD) : Tbl 4096 EReal := V m c main_arg0
abbrev topArr (c : Dev nD) : Tbl 4096 (BitVec 32) := V m c main_arg1
abbrev validArr (c : Dev nD) : Tbl 4096 (BitVec 32) := V m c main_arg2
/-- Their blocks at step `t`. -/
abbrev scoreBlk (c : Dev nD) (t : Fin cfg0.N) : Tbl 64 EReal := iblk m c 0 t
abbrev topBlk (c : Dev nD) (t : Fin cfg0.N) : Tbl 64 (BitVec 32) := iblk m c 1 t
abbrev validBlk (c : Dev nD) (t : Fin cfg0.N) : Tbl 64 (BitVec 32) := iblk m c 2 t

/-- What step `t` adds to the loss total, and to the count total. -/
def blockLoss (c : Dev nD) (t : Fin cfg0.N) : EReal := lossSum (scoreBlk m c t) (topBlk m c t) (validBlk m c t)
def blockCount (c : Dev nD) (t : Fin cfg0.N) : EReal := pairCount (topBlk m c t) (validBlk m c t)

/-- After step `n` the loss total holds the sum of what steps 0 … n added. -/
theorem loss_after (c : Dev nD) : ∀ (n : ℕ) (h : n < cfg0.N) (y : S1x1.Idx),
    (outsAt0 m c n h).1 y = ∑ p : Fin (n + 1), blockLoss m c ⟨p.val, lt_of_lt_of_le p.isLt (Nat.succ_le_of_lt h)⟩
  | 0, h, y => by
    rw [outsAt0_A m c ⟨0, h⟩ rfl]
    dsimp only
    refine (congrFun (first_loss (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl)
      (scoreBlk m c ⟨0, h⟩) (topBlk m c ⟨0, h⟩) (validBlk m c ⟨0, h⟩)) y).trans ?_
    rw [loss_step, (start_zero y).1, zero_add, Fin.sum_univ_one]
    rfl
  | n + 1, h, y => by
    have hN : cfg0.N = 64 := N_0
    have hB : ¬(⟨n + 1, h⟩ : Fin cfg0.N).val % 64 = 0 := by dsimp only; omega
    rw [outsAt0_B m c ⟨n + 1, h⟩ hB]
    dsimp only
    refine (congrFun (next_loss (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hh => hB ((hcond0_0 ⟨n + 1, h⟩).mp hh))
      (scoreBlk m c ⟨n + 1, h⟩) (topBlk m c ⟨n + 1, h⟩) (validBlk m c ⟨n + 1, h⟩)
      (outsAt0 m c n (Nat.lt_of_succ_lt h)).1 (outsAt0 m c n (Nat.lt_of_succ_lt h)).2) y).trans ?_
    rw [loss_step, Fin.sum_univ_castSucc, loss_after c n (Nat.lt_of_succ_lt h) y]
    rfl

/-- After step `n` the count total holds the sum of what steps 0 … n added. -/
theorem count_after (c : Dev nD) : ∀ (n : ℕ) (h : n < cfg0.N) (y : S1x1.Idx),
    (outsAt0 m c n h).2 y = ∑ p : Fin (n + 1), blockCount m c ⟨p.val, lt_of_lt_of_le p.isLt (Nat.succ_le_of_lt h)⟩
  | 0, h, y => by
    rw [outsAt0_A m c ⟨0, h⟩ rfl]
    dsimp only
    refine (congrFun (first_count (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl)
      (scoreBlk m c ⟨0, h⟩) (topBlk m c ⟨0, h⟩) (validBlk m c ⟨0, h⟩)) y).trans ?_
    rw [count_step, (start_zero y).2, zero_add, Fin.sum_univ_one]
    rfl
  | n + 1, h, y => by
    have hN : cfg0.N = 64 := N_0
    have hB : ¬(⟨n + 1, h⟩ : Fin cfg0.N).val % 64 = 0 := by dsimp only; omega
    rw [outsAt0_B m c ⟨n + 1, h⟩ hB]
    dsimp only
    refine (congrFun (next_count (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hh => hB ((hcond0_0 ⟨n + 1, h⟩).mp hh))
      (scoreBlk m c ⟨n + 1, h⟩) (topBlk m c ⟨n + 1, h⟩) (validBlk m c ⟨n + 1, h⟩)
      (outsAt0 m c n (Nat.lt_of_succ_lt h)).1 (outsAt0 m c n (Nat.lt_of_succ_lt h)).2) y).trans ?_
    rw [count_step, Fin.sum_univ_castSucc, count_after c n (Nat.lt_of_succ_lt h) y]
    rfl

end Sums

end Cert.KernelIdeal.Totals

end
-- ==== Proof.WholeSums.lean ====
/-
  From the blocks to the whole arguments. At step t each input window sits at block row t (`index_facts`), so block t of a
  [4096, 128] argument is its rows 64 t … 64 t + 63 (`scoreBlk_eq`, `topBlk_eq`, `validBlk_eq`), and the 64 steps'
  additions make `lossSum` and `pairCount` of the whole arguments (`loss_total`, `count_total`, by `lossSum_blocks` and
  `pairCount_blocks`).
-/
import proofs.«148884_j9783935500651_1_alg».proof.Proof.Totals

noncomputable section

open scoped BigOperators

open Idealize.ShloMosaic Idealize.ShloMosaic.TcCoe Idealize.SL.Sem
open Idealize.ShloMosaic.Pipeline (Dat)

namespace Cert.KernelIdeal.Totals

open Cert.KernelIdeal Cert.KernelIdeal.Gen Cert.PairHinge Idealize.ShloMosaic.ValueIdx

section Whole

variable (m : (ℓ : Loc nD τ sig) → Buf (Elt Ideal) ℓ)

/-- The printed index maps, decided over the grid: at step `t` each input window is at block row `t`, block column 0;
    each total's window stays at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Block `t` of the scores is rows 64 t … 64 t + 63 of the score array. -/
theorem scoreBlk_eq (c : Dev nD) (t : Fin cfg0.N) (ht : t.val < 64) : scoreBlk m c t = rows64 (scoreArr m c) ⟨t.val, ht⟩ := by
  obtain ⟨e0, e1, -⟩ := index_facts t
  funext y
  show V m c main_arg0 (((cfg0.win 0).blk t).view.emb y) = V m c main_arg0 (ix2 ⟨64 * t.val + (y 0).val, _⟩ (y 1))
  refine congrArg (V m c main_arg0) (funext fun a => Fin.ext ?_)
  match a with
  | ⟨0, _⟩ => show win0_0.index t (0 : Fin 2) * 64 + 1 * (y 0).val = 64 * t.val + (y 0).val; rw [e0]; omega
  | ⟨1, _⟩ => show win0_0.index t (1 : Fin 2) * 128 + 1 * (y 1).val = (y 1).val; rw [e1]; omega

/-- Block `t` of the first mask is rows 64 t … 64 t + 63 of it. -/
theorem topBlk_eq (c : Dev nD) (t : Fin cfg0.N) (ht : t.val < 64) : topBlk m c t = rows64 (topArr m c) ⟨t.val, ht⟩ := by
  obtain ⟨-, -, e0, e1, -⟩ := index_facts t
  funext y
  show V m c main_arg1 (((cfg0.win 1).blk t).view.emb y) = V m c main_arg1 (ix2 ⟨64 * t.val + (y 0).val, _⟩ (y 1))
  refine congrArg (V m c main_arg1) (funext fun a => Fin.ext ?_)
  match a with
  | ⟨0, _⟩ => show win0_1.index t (0 : Fin 2) * 64 + 1 * (y 0).val = 64 * t.val + (y 0).val; rw [e0]; omega
  | ⟨1, _⟩ => show win0_1.index t (1 : Fin 2) * 128 + 1 * (y 1).val = (y 1).val; rw [e1]; omega

/-- Block `t` of the second mask is rows 64 t … 64 t + 63 of it. -/
theorem validBlk_eq (c : Dev nD) (t : Fin cfg0.N) (ht : t.val < 64) : validBlk m c t = rows64 (validArr m c) ⟨t.val, ht⟩ := by
  obtain ⟨-, -, -, -, e0, e1, -⟩ := index_facts t
  funext y
  show V m c main_arg2 (((cfg0.win 2).blk t).view.emb y) = V m c main_arg2 (ix2 ⟨64 * t.val + (y 0).val, _⟩ (y 1))
  refine congrArg (V m c main_arg2) (funext fun a => Fin.ext ?_)
  match a with
  | ⟨0, _⟩ => show win0_2.index t (0 : Fin 2) * 64 + 1 * (y 0).val = 64 * t.val + (y 0).val; rw [e0]; omega
  | ⟨1, _⟩ => show win0_2.index t (1 : Fin 2) * 128 + 1 * (y 1).val = (y 1).val; rw [e1]; omega

/-- The 64 steps' additions to the loss total make the loss sum of the whole arguments. -/
theorem loss_total (c : Dev nD) (n : ℕ) (hN : n < cfg0.N) (hn : n = 63) :
    ∑ p : Fin (n + 1), blockLoss m c ⟨p.val, lt_of_lt_of_le p.isLt (Nat.succ_le_of_lt hN)⟩
      = lossSum (scoreArr m c) (topArr m c) (validArr m c) := by
  subst hn
  rw [lossSum_blocks]
  refine Finset.sum_congr rfl fun p _ => ?_
  have hp : p.val < cfg0.N := lt_of_lt_of_le p.isLt (Nat.succ_le_of_lt hN)
  unfold blockLoss
  rw [scoreBlk_eq m c ⟨p.val, hp⟩ p.isLt, topBlk_eq m c ⟨p.val, hp⟩ p.isLt, validBlk_eq m c ⟨p.val, hp⟩ p.isLt]

/-- The 64 steps' additions to the count total make the pair count of the whole arguments. -/
theorem count_total (c : Dev nD) (n : ℕ) (hN : n < cfg0.N) (hn : n = 63) :
    ∑ p : Fin (n + 1), blockCount m c ⟨p.val, lt_of_lt_of_le p.isLt (Nat.succ_le_of_lt hN)⟩
      = pairCount (topArr m c) (validArr m c) := by
  subst hn
  rw [pairCount_blocks]
  refine Finset.sum_congr rfl fun p _ => ?_
  have hp : p.val < cfg0.N := lt_of_lt_of_le p.isLt (Nat.succ_le_of_lt hN)
  unfold blockCount
  rw [topBlk_eq m c ⟨p.val, hp⟩ p.isLt, validBlk_eq m c ⟨p.val, hp⟩ p.isLt]

end Whole

end Cert.KernelIdeal.Totals

end
-- ==== Proof.LastBlock.lean ====
/-
  Each result array has one entry, and the totals' windows stay at block (0, 0): so that entry is in the block every
  step would write (`mem_loss_blk`, `mem_count_blk`).
-/
import proofs.«148884_j9783935500651_1_alg».proof.Proof.WholeSums

noncomputable section

open scoped BigOperators

open Idealize.ShloMosaic Idealize.ShloMosaic.TcCoe Idealize.SL.Sem
open Idealize.ShloMosaic.Pipeline (Dat)

namespace Cert.KernelIdeal.Totals

open Cert.KernelIdeal Cert.KernelIdeal.Gen Cert.PairHinge Idealize.ShloMosaic.ValueIdx

section Whole

variable (m : (ℓ : Loc nD τ sig) → Buf (Elt Ideal) ℓ)

/-- The one entry of the loss array is in every step's block of it. -/
theorem mem_loss_blk (t : Fin cfg0.N) (i : S1x1.Idx) : i ∈ ((cfg0.win 3).blk t).view.set := by
  obtain ⟨-, -, -, -, -, -, e0, e1, -⟩ := index_facts t
  show i ∈ ((View.whole main_v0_0).slice (win0_3.rect t)).set
  rw [View.set_slice_whole, Rect.mem_set_unit]
  intro a
  match a with
  | ⟨0, _⟩ =>
    show win0_3.index t (0 : Fin 2) * 1 ≤ (i 0).val ∧ (i 0).val < win0_3.index t (0 : Fin 2) * 1 + 1
    have : (i 0).val < 1 := (i 0).isLt
    omega
  | ⟨1, _⟩ =>
    show win0_3.index t (1 : Fin 2) * 1 ≤ (i 1).val ∧ (i 1).val < win0_3.index t (1 : Fin 2) * 1 + 1
    have : (i 1).val < 1 := (i 1).isLt
    omega

/-- The one entry of the count array is in every step's block of it. -/
theorem mem_count_blk (t : Fin cfg0.N) (i : S1x1.Idx) : i ∈ ((cfg0.win 4).blk t).view.set := by
  obtain ⟨-, -, -, -, -, -, -, -, e0, e1⟩ := index_facts t
  show i ∈ ((View.whole main_v0_1).slice (win0_4.rect t)).set
  rw [View.set_slice_whole, Rect.mem_set_unit]
  intro a
  match a with
  | ⟨0, _⟩ =>
    show win0_4.index t (0 : Fin 2) * 1 ≤ (i 0).val ∧ (i 0).val < win0_4.index t (0 : Fin 2) * 1 + 1
    have : (i 0).val < 1 := (i 0).isLt
    omega
  | ⟨1, _⟩ =>
    show win0_4.index t (1 : Fin 2) * 1 ≤ (i 1).val ∧ (i 1).val < win0_4.index t (1 : Fin 2) * 1 + 1
    have : (i 1).val < 1 := (i 1).isLt
    omega

end Whole

end Cert.KernelIdeal.Totals

end
-- ==== Proof.Finals.lean ====
/-
  The two result arrays after the run. The last step is the only one that writes the totals back, the one entry of each
  result array is in the block written, and what is written is the total after all 64 steps: so the arrays end holding
  `lossSum` and `pairCount` of the whole arguments (`final_loss`, `final_count`).
-/
import proofs.«148884_j9783935500651_1_alg».proof.Proof.LastBlock

noncomputable section

open scoped BigOperators

open Idealize.ShloMosaic Idealize.ShloMosaic.TcCoe Idealize.SL.Sem
open Idealize.ShloMosaic.Pipeline (Dat)

namespace Cert.KernelIdeal.Totals

open Cert.KernelIdeal Cert.KernelIdeal.Gen Cert.PairHinge Idealize.ShloMosaic.ValueIdx

section Whole

variable (m : (ℓ : Loc nD τ sig) → Buf (Elt Ideal) ℓ)

/-- If after step `t` every entry of the loss total is the number `P`, what step `t` would write back is the block of the
    constant array `P`. -/
theorem flushed_loss_const (c : Dev nD) (t : Fin cfg0.N) (P : EReal) (h : ∀ y, (outsAt0 m c t.val t.isLt).1 y = P) :
    (dats m 0 c).flushed 3 t = ((cfg0.win 3).blk t).view.read (Elt Ideal) (fun _ => P) := by
  funext j
  show (dats m 0 c).after 3 t ((cfg0.win 3).xinj (grid0.coords t) j) = P
  rw [after0_3]
  exact h _

/-- The same for the count total. -/
theorem flushed_count_const (c : Dev nD) (t : Fin cfg0.N) (P : EReal) (h : ∀ y, (outsAt0 m c t.val t.isLt).2 y = P) :
    (dats m 0 c).flushed 4 t = ((cfg0.win 4).blk t).view.read (Elt Ideal) (fun _ => P) := by
  funext j
  show (dats m 0 c).after 4 t ((cfg0.win 4).xinj (grid0.coords t) j) = P
  rw [after0_4]
  exact h _

/-- THE LOSS ARRAY after the run: its entry is the loss sum of the whole arguments. Only the last step writes the total
    back, and what it writes is the total after 64 steps. -/
theorem final_loss (c : Dev nD) :
    (dats m 0 c).arrAt 3 cfg0.N = fun _ => lossSum (scoreArr m c) (topArr m c) (validArr m c) := by
  have hN : cfg0.N = 64 := N_0
  have h63 : 63 < cfg0.N := by omega
  refine (dats m 0 c).arrAt_eq_of_cover 3 _ (fun t hf => ?_) (fun i => ⟨⟨63, h63⟩, (flush0_3 _).mpr rfl, mem_loss_blk _ i⟩)
  have ht : t.val = 63 := by have := (flush0_3 t).mp hf; have := t.isLt; omega
  exact flushed_loss_const m c t _ fun y => (loss_after m c t.val t.isLt y).trans (loss_total m c t.val t.isLt ht)

/-- THE COUNT ARRAY after the run: its entry is the pair count of the whole arguments. -/
theorem final_count (c : Dev nD) :
    (dats m 0 c).arrAt 4 cfg0.N = fun _ => pairCount (topArr m c) (validArr m c) := by
  have hN : cfg0.N = 64 := N_0
  have h63 : 63 < cfg0.N := by omega
  refine (dats m 0 c).arrAt_eq_of_cover 4 _ (fun t hf => ?_) (fun i => ⟨⟨63, h63⟩, (flush0_4 _).mpr rfl, mem_count_blk _ i⟩)
  have ht : t.val = 63 := by have := (flush0_4 t).mp hf; have := t.isLt; omega
  exact flushed_count_const m c t _ fun y => (count_after m c t.val t.isLt y).trans (count_total m c t.val t.isLt ht)

end Whole

end Cert.KernelIdeal.Totals

end
-- ==== Proof.KernelValue.lean ====
/-
  The kernel's result. After the grid the program views each one-entry total as a scalar and ends with `finish` of the two
  (`tail_eq`: the operations after the region, applied to the region's two result arrays); the arrays hold the loss sum and
  the pair count of the whole arguments (`final_loss`, `final_count`), so the result is `finish` of those two numbers
  (`result_eq`), and the run ends with it in the result buffer and the three arguments as they were (`run`).
-/
import proofs.«148884_j9783935500651_1_alg».proof.Proof.Finals
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.Totals

open Cert.KernelIdeal Cert.KernelIdeal.Gen Cert.PairHinge Idealize.ShloMosaic.ValueIdx

section Tail

variable {F : FTy → Type} [FloatOps F] (m : (ℓ : Loc nD τ sig) → Buf (Elt F) ℓ)

/-- A one-entry array viewed as a scalar. -/
abbrev cell (A : FVec F S1x1 .f32) : FVec F S_ .f32 := shapeCast S_ A shapeCasts_S1x1_S_

/-- The core's buffers when the region is left: the region's arrays at what the run computes, the rest as before. -/
abbrev afterRegion (c : Dev nD) : Valuation τ sig (Elt F) :=
  Pipeline.withArrays (cfgs 0).spec c (V0 m c) (fun w => (dats m 0 c).arrAt w (cfgs 0).N)

/-- The operations after the region leave `finish` of the two totals, each viewed as a scalar, in the result buffer. -/
theorem tail_eq (c : Dev nD) :
    Pipeline.afterTail₀ cfgs (dats m) 0 (V0 m) [hostOps1, hostOps1_1] c main_v6
      = finish (cell (afterRegion m c (Proc.devRef .tc main_v0_0))) (cell (afterRegion m c (Proc.devRef .tc main_v0_1))) := by
  unfold Pipeline.afterTail₀
  simp only [hostOps1, hostOps1_1, List.flatten_cons, List.flatten_nil, List.append_nil, List.cons_append, List.nil_append]
  after_results
  rfl

/-- A one-entry array whose entry is `P`, viewed as a scalar, is `P`. -/
theorem cell_const (P : F .f32) : cell (F := F) (fun _ => P) = fun _ => P := rfl

end Tail

section Result

variable (m : (ℓ : Loc nD τ sig) → Buf (Elt Ideal) ℓ) (ρ : Dev nD → PrngReg)

/-- The kernel's result as a function of the three argument arrays. -/
def result (s : Tbl 4096 EReal) (tm vm : Tbl 4096 (BitVec 32)) : FVec Ideal S_ .f32 :=
  finish (F := Ideal) (fun _ => lossSum s tm vm) (fun _ => pairCount tm vm)

theorem result_eq (c : Dev nD) :
    Pipeline.afterTail₀ cfgs (dats m) 0 (V0 m) [hostOps1, hostOps1_1] c main_v6
      = result (scoreArr m c) (topArr m c) (validArr m c) := by
  have e3 : afterRegion m c (Proc.devRef .tc main_v0_0) = fun _ => lossSum (scoreArr m c) (topArr m c) (validArr m c) :=
    (Pipeline.withArrays_arr spec0 launch0.win.arr_inj c _ _ 3).trans (final_loss m c)
  have e4 : afterRegion m c (Proc.devRef .tc main_v0_1) = fun _ => pairCount (topArr m c) (validArr m c) :=
    (Pipeline.withArrays_arr spec0 launch0.win.arr_inj c _ _ 4).trans (final_count m c)
  unfold result
  rw [tail_eq, e3, e4]
  exact congrArg₂ (finish (F := Ideal)) (cell_const (F := Ideal) (lossSum (scoreArr m c) (topArr m c) (validArr m c)))
    (cell_const (F := Ideal) (pairCount (topArr m c) (validArr m c)))

/-- THE RUN, READ: every weakly fair execution ends with the result buffer at `result` of the arguments, the arguments unchanged. -/
theorem run : θ_run defs (onTc (τ := τ) (main (F := Ideal))) ⟨m, fun _ => 0, ρ⟩ fun r => ∀ c : Dev nD,
      r.2.mem ((c : Thread nD τ).loc main_v6)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).2 main_v6 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Result

end Cert.KernelIdeal.Totals

end
-- ==== Proof.lean ====
/-
  The pairwise ranking hinge loss: a Pallas kernel against its jnp reference, equal over the extended reals.

  Both programs compute, from scores `s[b, i]` and two word masks, the loss `L = ∑ b i j, max (1 - (s[b,i] - s[b,j])) 0 · w[b,i,j]`
  and the count `C = ∑ b i j, w[b,i,j]` with `w[b,i,j] = [tm[b,i] = 1] · [tm[b,j] = 0 ∧ vm[b,j] = 1]`, and return `L / max C 1` where
  `C > 0` and `L` elsewhere. The reference sums each [4096, 128, 128] array over all its axes at once. The kernel walks the
  4096 rows in 64 blocks of 64: each grid step sums its block's tile over j, then i, then the block's rows, and adds the two
  numbers to two one-entry totals that the first step has reset to zero; the totals are written back after the last step
  and the division and the select are done after the region. Addition of extended reals is commutative and associative,
  so the reference's one sum over 4096 · 128 · 128 indices is the kernel's 64 partial sums added in step order, with no
  finiteness needed: the precondition is never opened.

  frame_Kernel, frame_KernelIdeal: the generated frames. frame_ReferenceIdeal: the reference's run with its result dropped.
  preserves: the idealization rewrote nothing. algebraic: the kernel's run ends at `Totals.result` of its arguments
  (Proof/KernelValue.lean, over Proof/Totals.lean, Proof/WholeSums.lean, Proof/Finals.lean and Proof/BlockBody.lean), the
  reference's at the same function of its own (Proof/RefSum.lean), and the arguments agree.
-/
import proofs.«148884_j9783935500651_1_alg».proof.Defs
import proofs.«148884_j9783935500651_1_alg».proof.Proof.Gen.Kernel
import proofs.«148884_j9783935500651_1_alg».proof.Proof.Gen.Kernel.Skeleton
import proofs.«148884_j9783935500651_1_alg».proof.Proof.Gen.Kernel.Launch
import proofs.«148884_j9783935500651_1_alg».proof.Proof.Gen.Kernel.Points
import proofs.«148884_j9783935500651_1_alg».proof.Proof.Gen.Kernel.Frame
import proofs.«148884_j9783935500651_1_alg».proof.Proof.Gen.KernelIdeal
import proofs.«148884_j9783935500651_1_alg».proof.Proof.Gen.KernelIdeal.Skeleton
import proofs.«148884_j9783935500651_1_alg».proof.Proof.Gen.KernelIdeal.Launch
import proofs.«148884_j9783935500651_1_alg».proof.Proof.Gen.KernelIdeal.Points
import proofs.«148884_j9783935500651_1_alg».proof.Proof.Gen.KernelIdeal.Frame
import proofs.«148884_j9783935500651_1_alg».proof.Proof.Gen.ReferenceIdeal
import proofs.«148884_j9783935500651_1_alg».proof.Proof.Gen.Pre_finite_inputs
import proofs.«148884_j9783935500651_1_alg».proof.Proof.RefRead
import proofs.«148884_j9783935500651_1_alg».proof.Proof.RefSum
import proofs.«148884_j9783935500651_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both runs end at the same function of their arguments, `finish` of the loss sum and the pair count, and the arguments
    agree. -/
theorem algebraic : Cert.algebraic_KernelIdeal_ReferenceIdeal := by
  intro m ρ m' ρ' _ hagree
  refine ⟨fun c => Cert.KernelIdeal.Totals.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Totals.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v28_eq, Cert.PairHinge.ref_result, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
